-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S800000x2 : Shape := ⟨2, ![800000, 2]⟩
abbrev S800000 : Shape := ⟨1, ![800000]⟩
abbrev S64x64 : Shape := ⟨2, ![64, 64]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S2x50000x64 .f32) (main_arg1 : IVec S800000x2 32) (main_arg2 : FVec F S2x50000x64 .f32) (main_arg3 : FVec F S2x50000x64 .f32) (main_arg4 : FVec F S800000 .f32) (main_arg5 : FVec F S64x64 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S2x50000x64 .f32 := Host.absf main_arg2
  let main_cst_0 : FVec F S_ .f32 := constant S_ .f32 0x7F800000#32
  let main_v5 : FVec F S2x50000x64 .f32 := broadcastInDim S2x50000x64 ![] bcast_S_S2x50000x64 main_cst_0
  let main_v6 : IVec S2x50000x64 1 := cmpf .olt main_v4 main_v5
  let main_c_1 : IVec S_ 1 := constantI S_ 1 1#1
  let main_v7 : IVec S_ 1 := (fun x v => Host.reduce IntOp.andi x v reducesTo_S2x50000x64_S_d0_1_2 h_S_) main_v6 main_c_1
  let main_v8 : IVec S_ 1 := andi main_v3 main_v7
  let main_v9 : FVec F S2x50000x64 .f32 := Host.absf main_arg3
  let main_cst_2 : FVec F S_ .f32 := constant S_ .f32 0x7F800000#32
  let main_v10 : FVec F S2x50000x64 .f32 := broadcastInDim S2x50000x64 ![] bcast_S_S2x50000x64 main_cst_2
  let main_v11 : IVec S2x50000x64 1 := cmpf .olt main_v9 main_v10
  let main_c_3 : IVec S_ 1 := constantI S_ 1 1#1
  let main_v12 : IVec S_ 1 := (fun x v => Host.reduce IntOp.andi x v reducesTo_S2x50000x64_S_d0_1_2 h_S_) main_v11 main_c_3
  let main_v13 : IVec S_ 1 := andi main_v8 main_v12
  let main_v14 : FVec F S800000 .f32 := Host.absf main_arg4
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg5 main_v13 main_v16
-- ==== Kernel.lean ====
abbrev S2x50000x64 : Shape := ⟨3, ![2, 50000, 64]⟩
abbrev S800000x2 : Shape := ⟨2, ![800000, 2]⟩
abbrev S800000 : Shape := ⟨1, ![800000]⟩
abbrev S64x64 : Shape := ⟨2, ![64, 64]⟩
abbrev S800000x1 : Shape := ⟨2, ![800000, 1]⟩
abbrev S1x800000x1 : Shape := ⟨3, ![1, 800000, 1]⟩
abbrev S_ : Shape := ⟨0, ![]⟩
abbrev S2x800000x64 : Shape := ⟨3, ![2, 800000, 64]⟩
abbrev S100000x64 : Shape := ⟨2, ![100000, 64]⟩
abbrev S5000x64 : Shape := ⟨2, ![5000, 64]⟩

abbrev nBuf : Space → Nat
  | .hbm => 59
  | .vmem => 9
  | .smem => 0
  | _ => 0

abbrev bufTy : (tb : Table) → Fin (tcTables nBuf tb) → BufTy
  | .hbm, ⟨0, _⟩ => ⟨S2x50000x64, .f32⟩
  | .hbm, ⟨1, _⟩ => ⟨S800000x2, .i32⟩
  | .hbm, ⟨2, _⟩ => ⟨S2x50000x64, .f32⟩
  | .hbm, ⟨3, _⟩ => ⟨S2x50000x64, .f32⟩
  | .hbm, ⟨4, _⟩ => ⟨S800000, .f32⟩
  | .hbm, ⟨5, _⟩ => ⟨S64x64, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S1x800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S2x800000x64, .f32⟩
  | .hbm, ⟨20, _⟩ => ⟨S2x800000x64, .f32⟩
  | .hbm, ⟨21, _⟩ => ⟨S2x800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S2x800000x64, .f32⟩
  | .hbm, ⟨31, _⟩ => ⟨S2x800000x64, .f32⟩
  | .hbm, ⟨32, _⟩ => ⟨S2x800000x64, .f32⟩
  | .hbm, ⟨33, _⟩ => ⟨S_, .f32⟩
  | .hbm, ⟨34, _⟩ => ⟨S2x50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S2x50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S2x50000x64, .f32⟩
  | .hbm, ⟨53, _⟩ => ⟨S64x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S2x50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  shapeCasts_S800000_S1x800000x1 : S800000.ShapeCasts S1x800000x1
  bcast_S_S800000 : S_.BroadcastsInDim S800000 (![] : Fin 0 → Fin S800000.rank)
  bcast_S800000_S800000x1_0 : S800000.BroadcastsInDim S800000x1 (![0] : Fin 1 → Fin S800000x1.rank)
  bcast_S1x800000x1_S2x800000x64_0_1_2 : S1x800000x1.BroadcastsInDim S2x800000x64 (![0, 1, 2] : Fin 3 → Fin S2x800000x64.rank)
  bcast_S_S2x50000x64 : S_.BroadcastsInDim S2x50000x64 (![] : Fin 0 → Fin S2x50000x64.rank)
  transposes_S64x64_S64x64_1_0 : S64x64.Transposes [1, 0] S64x64
  shapeCasts_S2x50000x64_S100000x64 : S2x50000x64.ShapeCasts S100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S100000x64_S2x50000x64 : S100000x64.ShapeCasts S2x50000x64
  gather_S2x50000x64_S800000x1_S2x800000x64_02_1_n_n_1_1_2164_wf : GatherDims.WF S2x50000x64 S800000x1 S2x800000x64 [0, 2] [1] [] [1] [] 1 ![2, 1, 64]
  scatter_S2x50000x64_S800000x1_S2x800000x64_02_1_1_1_wf : ScatterDims.WF S2x50000x64 S800000x1 S2x800000x64 [0, 2] [1] [1] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S2x50000x64_S800000x1_S2x800000x64_02_1_n_n_1_1_2164 : GatherDims S2x50000x64 S800000x1 S2x800000x64 where
  offsetDims := [0, 2]
  collapsedSliceDims := [1]
  operandBatchingDims := []
  startIndicesBatchingDims := []
  startIndexMap := [1]
  indexVectorDim := 1
  sliceSizes := ![2, 1, 64]
  wf := gather_S2x50000x64_S800000x1_S2x800000x64_02_1_n_n_1_1_2164_wf
def scatter_S2x50000x64_S800000x1_S2x800000x64_02_1_1_1 : ScatterDims S2x50000x64 S800000x1 S2x800000x64 where
  updateWindowDims := [0, 2]
  insertedWindowDims := [1]
  scatterDimsToOperandDims := [1]
  indexVectorDim := 1
  wf := scatter_S2x50000x64_S800000x1_S2x800000x64_02_1_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v39) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x50000x64 : Shape := ⟨3, ![2, 50000, 64]⟩
abbrev S800000x2 : Shape := ⟨2, ![800000, 2]⟩
abbrev S800000 : Shape := ⟨1, ![800000]⟩
abbrev S64x64 : Shape := ⟨2, ![64, 64]⟩
abbrev S800000x1 : Shape := ⟨2, ![800000, 1]⟩
abbrev S1x800000x1 : Shape := ⟨3, ![1, 800000, 1]⟩
abbrev S_ : Shape := ⟨0, ![]⟩
abbrev S2x800000x64 : Shape := ⟨3, ![2, 800000, 64]⟩

abbrev nBuf : Space → Nat
  | .hbm => 63
  | .vmem => 0
  | .smem => 0
  | _ => 0

abbrev bufTy : (tb : Table) → Fin (tcTables nBuf tb) → BufTy
  | .hbm, ⟨0, _⟩ => ⟨S2x50000x64, .f32⟩
  | .hbm, ⟨1, _⟩ => ⟨S800000x2, .i32⟩
  | .hbm, ⟨2, _⟩ => ⟨S2x50000x64, .f32⟩
  | .hbm, ⟨3, _⟩ => ⟨S2x50000x64, .f32⟩
  | .hbm, ⟨4, _⟩ => ⟨S800000, .f32⟩
  | .hbm, ⟨5, _⟩ => ⟨S64x64, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S1x800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S2x800000x64, .f32⟩
  | .hbm, ⟨20, _⟩ => ⟨S2x800000x64, .f32⟩
  | .hbm, ⟨21, _⟩ => ⟨S2x800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S2x800000x64, .f32⟩
  | .hbm, ⟨31, _⟩ => ⟨S2x800000x64, .f32⟩
  | .hbm, ⟨32, _⟩ => ⟨S2x800000x64, .f32⟩
  | .hbm, ⟨33, _⟩ => ⟨S_, .f32⟩
  | .hbm, ⟨34, _⟩ => ⟨S2x50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S2x50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S2x50000x64, .f32⟩
  | .hbm, ⟨53, _⟩ => ⟨S2x50000x64, .f32⟩
  | .hbm, ⟨54, _⟩ => ⟨S2x50000x64, .f32⟩
  | .hbm, ⟨55, _⟩ => ⟨S2x50000x64, .f32⟩
  | .hbm, ⟨56, _⟩ => ⟨S_, .f32⟩
  | .hbm, ⟨57, _⟩ => ⟨S2x50000x64, .f32⟩
  | .hbm, ⟨58, _⟩ => ⟨S2x50000x64, .i1⟩
  | .hbm, ⟨59, _⟩ => ⟨S_, .f32⟩
  | .hbm, ⟨60, _⟩ => ⟨S2x50000x64, .f32⟩
  | .hbm, ⟨61, _⟩ => ⟨S2x50000x64, .f32⟩
  | .hbm, ⟨62, _⟩ => ⟨S2x50000x64, .f32⟩
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  shapeCasts_S800000_S1x800000x1 : S800000.ShapeCasts S1x800000x1
  bcast_S_S800000 : S_.BroadcastsInDim S800000 (![] : Fin 0 → Fin S800000.rank)
  bcast_S800000_S800000x1_0 : S800000.BroadcastsInDim S800000x1 (![0] : Fin 1 → Fin S800000x1.rank)
  bcast_S1x800000x1_S2x800000x64_0_1_2 : S1x800000x1.BroadcastsInDim S2x800000x64 (![0, 1, 2] : Fin 3 → Fin S2x800000x64.rank)
  bcast_S_S2x50000x64 : S_.BroadcastsInDim S2x50000x64 (![] : Fin 0 → Fin S2x50000x64.rank)
  gather_S2x50000x64_S800000x1_S2x800000x64_02_1_n_n_1_1_2164_wf : GatherDims.WF S2x50000x64 S800000x1 S2x800000x64 [0, 2] [1] [] [1] [] 1 ![2, 1, 64]
  scatter_S2x50000x64_S800000x1_S2x800000x64_02_1_1_1_wf : ScatterDims.WF S2x50000x64 S800000x1 S2x800000x64 [0, 2] [1] [1] 1
  dot_S2x50000x64_S64x64_S2x50000x64_2_1_01_0_n_n_wf : DotDims.WF S2x50000x64 S64x64 S2x50000x64 [2] [1] [0, 1] [0] [] []

variable [Facts₀]

def gather_S2x50000x64_S800000x1_S2x800000x64_02_1_n_n_1_1_2164 : GatherDims S2x50000x64 S800000x1 S2x800000x64 where
  offsetDims := [0, 2]
  collapsedSliceDims := [1]
  operandBatchingDims := []
  startIndicesBatchingDims := []
  startIndexMap := [1]
  indexVectorDim := 1
  sliceSizes := ![2, 1, 64]
  wf := gather_S2x50000x64_S800000x1_S2x800000x64_02_1_n_n_1_1_2164_wf
def scatter_S2x50000x64_S800000x1_S2x800000x64_02_1_1_1 : ScatterDims S2x50000x64 S800000x1 S2x800000x64 where
  updateWindowDims := [0, 2]
  insertedWindowDims := [1]
  scatterDimsToOperandDims := [1]
  indexVectorDim := 1
  wf := scatter_S2x50000x64_S800000x1_S2x800000x64_02_1_1_1_wf
def dot_S2x50000x64_S64x64_S2x50000x64_2_1_01_0_n_n : DotDims S2x50000x64 S64x64 S2x50000x64 where
  lhsContracting := [2]
  rhsContracting := [1]
  lhsNonContracting := [0, 1]
  rhsNonContracting := [0]
  lhsBatch := []
  rhsBatch := []
  wf := dot_S2x50000x64_S64x64_S2x50000x64_2_1_01_0_n_n_wf

class Facts : Prop extends Facts₀ where

variable [Facts]
-- ==== Proof.Nbr.lean ====
/-
  The neighbour aggregation, as one function of the previous embeddings x, the edge list and the edge status.

  For every edge k with endpoints (u k, v k) — each index wrapped once, i + 50000 where i < 0 — and gate g k:
  row u k of x, scaled by g k, is added into row v k of a zero array, and then row v k of x, scaled by g k, is added
  into row u k (per batch, per feature). Both the kernel program and the reference compute exactly this, with the
  same operations in the same order, before anything else; the certificate never opens it: it only needs that the two
  programs apply it to the same three arrays.
-/
import proofs.«170714_j70669391888820_1_alg».proof.Proof.Gen.KernelIdeal

noncomputable section

namespace Cert.KernelIdeal.Nbr

open Cert.KernelIdeal Cert.KernelIdeal.Gen Idealize.ShloMosaic

variable {F : FTy → Type} [FloatOps F]

/-- The source endpoints: column 0 of the edge list. -/
def srcCol (ed : (⟨S800000x2, .i32⟩ : BufTy).Contents (Elt F)) : (⟨S800000, .i32⟩ : BufTy).Contents (Elt F) :=
  shapeCast S800000 (extractStridedSlice S800000x1 ![0, 0] ed slices_S800000x2_S800000x1_0_0) shapeCasts_S800000x1_S800000

/-- The destination endpoints: column 1 of the edge list. -/
def dstCol (ed : (⟨S800000x2, .i32⟩ : BufTy).Contents (Elt F)) : (⟨S800000, .i32⟩ : BufTy).Contents (Elt F) :=
  shapeCast S800000 (extractStridedSlice S800000x1 ![0, 1] ed slices_S800000x2_S800000x1_0_1) shapeCasts_S800000x1_S800000

/-- An index column wrapped once (i + 50000 where i < 0), as the one-column index table a gather or scatter reads. -/
def wrapped (i : (⟨S800000, .i32⟩ : BufTy).Contents (Elt F)) : (⟨S800000x1, .i32⟩ : BufTy).Contents (Elt F) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The gate, one number per edge, spread over batch and feature. -/
def gate (st : (⟨S800000, .f32⟩ : BufTy).Contents (Elt F)) : (⟨S2x800000x64, .f32⟩ : BufTy).Contents (Elt F) :=
  broadcastInDim S2x800000x64 ![0, 1, 2] bcast_S1x800000x1_S2x800000x64_0_1_2 (shapeCast S1x800000x1 st shapeCasts_S800000_S1x800000x1)

/-- The rows of x at the endpoints i, gated. -/
def message (x : (⟨S2x50000x64, .f32⟩ : BufTy).Contents (Elt F)) (i : (⟨S800000, .i32⟩ : BufTy).Contents (Elt F))
    (st : (⟨S800000, .f32⟩ : BufTy).Contents (Elt F)) : (⟨S2x800000x64, .f32⟩ : BufTy).Contents (Elt F) :=
  mulf (Host.gather gather_S2x50000x64_S800000x1_S2x800000x64_02_1_n_n_1_1_2164 x (wrapped i)) (gate st)

/-- The aggregated neighbour messages: source rows into destination rows, then destination rows into source rows. -/
def nbrOf (x : (⟨S2x50000x64, .f32⟩ : BufTy).Contents (Elt F)) (ed : (⟨S800000x2, .i32⟩ : BufTy).Contents (Elt F))
    (st : (⟨S800000, .f32⟩ : BufTy).Contents (Elt F)) : (⟨S2x50000x64, .f32⟩ : BufTy).Contents (Elt F) :=
  Host.scatterAdd scatter_S2x50000x64_S800000x1_S2x800000x64_02_1_1_1
    (Host.scatterAdd scatter_S2x50000x64_S800000x1_S2x800000x64_02_1_1_1
      (broadcastInDim S2x50000x64 ![] bcast_S_S2x50000x64 (constant S_ .f32 0x00000000#32))
      (wrapped (dstCol ed)) (message x (srcCol ed) st))
    (wrapped (srcCol ed)) (message x (dstCol ed) st)

end Cert.KernelIdeal.Nbr

end
-- ==== Proof.KernelArrays.lean ====
/-
  The four arrays the kernel region stages, as the host lines before it leave them.

  Before the region the program computes the neighbour aggregation (Nbr.lean), flattens it and the two feature arrays
  from [2, 50000, 64] to [100000, 64] (batch and node become one row axis), and transposes the weight. Each of the four
  staged arrays is therefore one operation applied to an argument array, or to the aggregation of three of them.
-/
import proofs.«170714_j70669391888820_1_alg».proof.Proof.Gen.KernelIdeal.Frame
import proofs.«170714_j70669391888820_1_alg».proof.Proof.Nbr
import Idealize.ShloMosaic.Lib.StableHlo.Run
import Idealize.ShloMosaic.PureOps.Ideal

set_option maxRecDepth 16384

noncomputable section

namespace Cert.KernelIdeal.KArrays

open Cert.KernelIdeal Cert.KernelIdeal.Gen Cert.KernelIdeal.Nbr
open Idealize.ShloMosaic Idealize.ShloMosaic.TcCoe Idealize.SL.Sem Idealize.ShloMosaic.StableHlo

variable (m : (ℓ : Loc nD τ sig) → Buf (Elt Ideal) ℓ)

/-- The aggregated messages, flattened to rows. -/
theorem nbr_rows (c : Dev nD) :
    V m c main_v39 = shapeCast S100000x64 (nbrOf (m ((c : Thread nD τ).loc main_arg0)) (m ((c : Thread nD τ).loc main_arg1))
      (m ((c : Thread nD τ).loc main_arg4))) shapeCasts_S2x50000x64_S100000x64 := by
  show StableHlo.after hostOps0 (fun b => m (c, b)) (Proc.devRef .tc main_v39) = _
  after_results_simp
  rfl

/-- The node features, flattened to rows. -/
theorem node_rows (c : Dev nD) :
    V m c main_v40 = shapeCast S100000x64 (m ((c : Thread nD τ).loc main_arg2)) shapeCasts_S2x50000x64_S100000x64 := by
  show StableHlo.after hostOps0 (fun b => m (c, b)) (Proc.devRef .tc main_v40) = _
  after_results_simp
  rfl

/-- The edge features, flattened to rows. -/
theorem edge_rows (c : Dev nD) :
    V m c main_v41 = shapeCast S100000x64 (m ((c : Thread nD τ).loc main_arg3)) shapeCasts_S2x50000x64_S100000x64 := by
  show StableHlo.after hostOps0 (fun b => m (c, b)) (Proc.devRef .tc main_v41) = _
  after_results_simp
  rfl

/-- The weight, transposed. -/
theorem weight_transposed (c : Dev nD) :
    V m c main_v38 = transpose S64x64 [1, 0] (m ((c : Thread nD τ).loc main_arg5)) transposes_S64x64_S64x64_1_0 := by
  show StableHlo.after hostOps0 (fun b => m (c, b)) (Proc.devRef .tc main_v38) = _
  after_results_simp

end Cert.KernelIdeal.KArrays

end
-- ==== Proof.Spec.lean ====
/-
  The fused stage after the neighbour aggregation, as one function of its operands.

  With nbr the aggregated neighbour messages, node and edge the two feature arrays and w the weight matrix
  (rows: output feature, columns: input feature), the result at batch b, node n, output feature e is

      act ( (node[b,n,e] + ∑ κ < 64, nbr[b,n,κ] · w[e,κ]) + edge[b,n,e] ),

  where act s = s if s ≥ 0 and 0x3C23D70A · s otherwise (the leaky rectifier, its slope kept as its binary word).

  The same numbers can be laid out with batch and node flattened into one row axis r = 50000·b + n and the weight
  transposed, wt[κ,e] = w[e,κ]:

      act ( (node2[r,e] + ∑ κ < 64, nbr2[r,κ] · wt[κ,e]) + edge2[r,e] ).

  This file states both layouts and proves that reshaping the second back to [2, 50000, 64] gives the first: the
  reshape keeps the row-major position, (50000·b + n)·64 + e on both sides, and the transpose swaps the two
  coordinates of the weight. No property of the extended reals is used beyond rewriting equal indices.
-/
import Idealize.ShloMosaic.Lib.ValueIdx
import Idealize.ShloMosaic.Lib.Pipeline.Value
import Idealize.ShloMosaic.PureOps.Ideal.Laws

noncomputable section

namespace Cert.Fused

open Idealize.ShloMosaic Idealize.ShloMosaic.ValueIdx

/-- batch × node × feature -/
abbrev T3 : Shape := ⟨3, ![2, 50000, 64]⟩
/-- (batch, node) flattened × feature -/
abbrev T2 : Shape := ⟨2, ![100000, 64]⟩
/-- the weight matrix -/
abbrev TW : Shape := ⟨2, ![64, 64]⟩

/-- The leaky rectifier on the extended reals: s itself where s ≥ 0, the slope word times s elsewhere. -/
def act (s : EReal) : EReal :=
  Scalar.select (FloatOps.cmpf (F := Ideal) (φ := .f32) .oge s (Ideal.ofBits .f32 0x00000000#32)) s
    (Ideal.ofBits .f32 0x3C23D70A#32 * s)

/-- Row layout, at row r and output feature e. -/
def rowsAt (nbr node edge : T2.Idx → EReal) (wt : TW.Idx → EReal) (r : Fin 100000) (e : Fin 64) : EReal :=
  act ((node (ix2 r e) + ∑ κ : Fin 64, nbr (ix2 r κ) * wt (ix2 κ e)) + edge (ix2 r e))

/-- Row layout, the whole array. -/
def rowsOut (nbr node edge : T2.Idx → EReal) (wt : TW.Idx → EReal) : T2.Idx → EReal :=
  fun i => rowsAt nbr node edge wt (i 0) (i 1)

/-- Batched layout, at batch b, node n and output feature e. -/
def batchAt (nbr node edge : T3.Idx → EReal) (w : TW.Idx → EReal) (b : Fin 2) (n : Fin 50000) (e : Fin 64) : EReal :=
  act ((node (ix3 b n e) + ∑ κ : Fin 64, nbr (ix3 b n κ) * w (ix2 e κ)) + edge (ix3 b n e))

/-- Batched layout, the whole array. -/
def batchOut (nbr node edge : T3.Idx → EReal) (w : TW.Idx → EReal) : T3.Idx → EReal :=
  fun i => batchAt nbr node edge w (i 0) (i 1) (i 2)

/-- Row r = 50000·b + n of a flattened array is entry (b, n) of the array it was flattened from. -/
theorem flat_apply (h3 : T3.ShapeCasts T2) (x : T3.Idx → EReal) (b : Fin 2) (n : Fin 50000) (q : Fin 64)
    (hr : 50000 * b.val + n.val < 100000) :
    shapeCast T2 x h3 (ix2 ⟨50000 * b.val + n.val, hr⟩ q) = x (ix3 b n q) :=
  shapeCast_apply x h3 _ (ix3 b n q) (by
    rw [Shape.rowMajor_val_two, Shape.rowMajor_val_three]
    show (b.val * 50000 + n.val) * 64 + q.val = (50000 * b.val + n.val) * 64 + q.val
    omega)

/-- The transposed weight at (κ, e) is the weight at (e, κ). -/
theorem transposed_apply (ht : TW.Transposes [1, 0] TW) (w : TW.Idx → EReal) (κ e : Fin 64) :
    transpose TW [1, 0] w ht (ix2 κ e) = w (ix2 e κ) :=
  transpose_apply [1, 0] w ht (ix2 κ e) (ix2 e κ) (fun b => match b with | ⟨0, _⟩ => rfl | ⟨1, _⟩ => rfl)

/-- Reshaping the row layout of the flattened operands and the transposed weight back to [2, 50000, 64] is the
    batched layout of the operands themselves. -/
theorem batch_of_rows (h : T2.ShapeCasts T3) (h3 : T3.ShapeCasts T2) (ht : TW.Transposes [1, 0] TW)
    (nbr node edge : T3.Idx → EReal) (w : TW.Idx → EReal) :
    shapeCast T3 (rowsOut (shapeCast T2 nbr h3) (shapeCast T2 node h3) (shapeCast T2 edge h3) (transpose TW [1, 0] w ht)) h
      = batchOut nbr node edge w := by
  funext i
  obtain ⟨b, n, e, rfl⟩ : ∃ (b : Fin 2) (n : Fin 50000) (e : Fin 64), i = ix3 b n e := ⟨i 0, i 1, i 2, eq_ix3 i⟩
  have hr : 50000 * b.val + n.val < 100000 := by have := b.isLt; have := n.isLt; omega
  refine (shapeCast_apply _ h (ix3 b n e) (ix2 ⟨50000 * b.val + n.val, hr⟩ e) (by
    rw [Shape.rowMajor_val_two, Shape.rowMajor_val_three]
    show (50000 * b.val + n.val) * 64 + e.val = (b.val * 50000 + n.val) * 64 + e.val
    omega)).trans ?_
  show rowsAt _ _ _ _ ⟨50000 * b.val + n.val, hr⟩ e = batchAt nbr node edge w b n e
  unfold rowsAt batchAt
  rw [flat_apply h3 node b n e hr, flat_apply h3 edge b n e hr]
  simp only [flat_apply h3 nbr b n _ hr, transposed_apply ht w]

end Cert.Fused

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelBlock.lean ====
/-
  One block of the kernel: what the body stores, at an entry.

  The body loads a block of 5000 rows of the aggregated messages (x0), the whole transposed weight (x3) and the same
  rows of the two feature arrays (x1, x2). Its casts to a narrower float format are the identity on the extended
  reals and its matrix product into a zero accumulator is the exact sum over the 64 input features, so the stored value
  at row p, feature q is   act ((x1[p,q] + ∑ κ < 64, x0[p,κ] · x3[κ,q]) + x2[p,q]).
-/
import proofs.«170714_j70669391888820_1_alg».proof.Proof.Gen.KernelIdeal.Skeleton
import proofs.«170714_j70669391888820_1_alg».proof.Proof.Spec
import proofs.«170714_j70669391888820_1_alg».proof.Proof.LibPlainDot

noncomputable section

namespace Cert.KernelIdeal.Block

open Cert.KernelIdeal Cert.KernelIdeal.Gen Idealize.ShloMosaic Idealize.ShloMosaic.ValueIdx Cert.Fused

/-- The body's product is a plain rows × columns product. -/
theorem plain : Cert.PlainDot.Plain dot_S5000x64_S64x64_S5000x64_1_0_0_1_n_n := ⟨rfl, rfl, rfl, rfl, rfl, rfl⟩

/-- The stored block at row p, feature q. -/
theorem pay_apply (x0 : Vec Ideal S5000x64 .f32) (x3 : Vec Ideal S64x64 .f32) (x1 x2 : Vec Ideal S5000x64 .f32)
    (p : Fin 5000) (q : Fin 64) :
    k0_pay1 x0 x3 x1 x2 (ix2 p q)
      = act ((x1 (ix2 p q) + ∑ κ : Fin 64, x0 (ix2 p κ) * x3 (ix2 κ q)) + x2 (ix2 p q)) := by
  unfold k0_pay1
  simp only [select_apply, cmpf_apply, mulf_apply, addf_apply, broadcast_apply, shapeCast_self]
  rw [Cert.PlainDot.matmul_zero_apply plain rfl rfl]
  rfl

end Cert.KernelIdeal.Block

end
-- ==== Proof.KernelValue.lean ====
/-
  The kernel region's output array after the run, as one function of the four arrays it stages.

  The grid has 20 points; point t stages rows 5000·t … 5000·t + 4999 of the aggregated messages and of the two feature
  arrays, and the whole transposed weight, and writes back the same rows of the output. A row of a block is therefore
  row 5000·t + p of the array, the block's value at an entry is the row layout of Spec.lean at that row
  (KernelBlock.lean), and since the 20 blocks tile the 100000 rows the output array ends holding the row layout
  everywhere. All of this is a statement about blocks of ARBITRARY arrays of these shapes; the arrays the region
  actually finds enter only in the last two theorems.
-/
import proofs.«170714_j70669391888820_1_alg».proof.Proof.Gen.KernelIdeal.Frame
import proofs.«170714_j70669391888820_1_alg».proof.Proof.KernelBlock
import Idealize.ShloMosaic.Lib.Pipeline.Value

set_option maxRecDepth 16384

noncomputable section

namespace Cert.KernelIdeal.KValue

open Cert.KernelIdeal Cert.KernelIdeal.Gen Cert.KernelIdeal.Block Cert.Fused
open Idealize.ShloMosaic Idealize.ShloMosaic.TcCoe Idealize.ShloMosaic.ValueIdx Idealize.SL.Sem
open Idealize.ShloMosaic.Pipeline (Dat Cfg Window)

-- the arrays' contents at the region's entry are a fold over the host lines before it: nothing here looks inside it
attribute [local irreducible] StableHlo.after

theorem zero_offsets : (![0, 0] : Fin 2 → Nat) = fun _ => 0 := funext fun a => by fin_cases a <;> rfl

/-- The printed index maps over the grid: the three row-blocked inputs and the output sit at block row t, column
    block 0; the weight at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Blocks of arbitrary arrays -/

/-- Row p of window 0's block at point t is row 5000·t + p of the array. -/
theorem rows_read0 (X : Vec Ideal S100000x64 .f32) (t : Fin cfg0.N) (p : Fin 5000) (q : Fin 64)
    (hr : 5000 * t.val + p.val < 100000) :
    ((cfg0.win 0).blk t).view.read (Elt Ideal) X (ix2 p q) = X (ix2 ⟨5000 * t.val + p.val, hr⟩ q) := by
  obtain ⟨e0, e1, -⟩ := index_facts t
  show X (((cfg0.win 0).blk t).view.emb (ix2 p q)) = X (ix2 ⟨5000 * t.val + p.val, hr⟩ q)
  refine congrArg X (funext fun a => Fin.ext ?_)
  match a with
  | ⟨0, _⟩ => show win0_0.index t (0 : Fin 2) * 5000 + 1 * p.val = 5000 * t.val + p.val; omega
  | ⟨1, _⟩ => show win0_0.index t (1 : Fin 2) * 64 + 1 * q.val = q.val; omega

/-- The same for window 1. -/
theorem rows_read1 (X : Vec Ideal S100000x64 .f32) (t : Fin cfg0.N) (p : Fin 5000) (q : Fin 64)
    (hr : 5000 * t.val + p.val < 100000) :
    ((cfg0.win 1).blk t).view.read (Elt Ideal) X (ix2 p q) = X (ix2 ⟨5000 * t.val + p.val, hr⟩ q) := by
  obtain ⟨-, -, e0, e1, -⟩ := index_facts t
  show X (((cfg0.win 1).blk t).view.emb (ix2 p q)) = X (ix2 ⟨5000 * t.val + p.val, hr⟩ q)
  refine congrArg X (funext fun a => Fin.ext ?_)
  match a with
  | ⟨0, _⟩ => show win0_1.index t (0 : Fin 2) * 5000 + 1 * p.val = 5000 * t.val + p.val; omega
  | ⟨1, _⟩ => show win0_1.index t (1 : Fin 2) * 64 + 1 * q.val = q.val; omega

/-- The same for window 2. -/
theorem rows_read2 (X : Vec Ideal S100000x64 .f32) (t : Fin cfg0.N) (p : Fin 5000) (q : Fin 64)
    (hr : 5000 * t.val + p.val < 100000) :
    ((cfg0.win 2).blk t).view.read (Elt Ideal) X (ix2 p q) = X (ix2 ⟨5000 * t.val + p.val, hr⟩ q) := by
  obtain ⟨-, -, -, -, e0, e1, -⟩ := index_facts t
  show X (((cfg0.win 2).blk t).view.emb (ix2 p q)) = X (ix2 ⟨5000 * t.val + p.val, hr⟩ q)
  refine congrArg X (funext fun a => Fin.ext ?_)
  match a with
  | ⟨0, _⟩ => show win0_2.index t (0 : Fin 2) * 5000 + 1 * p.val = 5000 * t.val + p.val; omega
  | ⟨1, _⟩ => show win0_2.index t (1 : Fin 2) * 64 + 1 * q.val = q.val; omega

/-- Window 3's block is its whole array, at every point. -/
theorem whole_read3 (D : Vec Ideal S64x64 .f32) (t : Fin cfg0.N) (κ q : Fin 64) :
    ((cfg0.win 3).blk t).view.read (Elt Ideal) D (ix2 κ q) = D (ix2 κ q) := by
  obtain ⟨-, -, -, -, -, -, e0, e1, -⟩ := index_facts t
  show D (((cfg0.win 3).blk t).view.emb (ix2 κ q)) = D (ix2 κ q)
  refine congrArg D (funext fun a => Fin.ext ?_)
  match a with
  | ⟨0, _⟩ => show win0_3.index t (0 : Fin 2) * 64 + 1 * κ.val = κ.val; omega
  | ⟨1, _⟩ => show win0_3.index t (1 : Fin 2) * 64 + 1 * q.val = q.val; omega

/-- The body's stored block at point t, over the blocks of four arbitrary arrays, is block t of their row layout. -/
theorem block_out (A B C : Vec Ideal S100000x64 .f32) (D : Vec Ideal S64x64 .f32) (t : Fin cfg0.N) :
    (cfg0.win 4).cut (grid0.coords t)
        (k0_pay1 (((cfg0.win 0).blk t).view.read (Elt Ideal) A) (((cfg0.win 3).blk t).view.read (Elt Ideal) D)
          (((cfg0.win 1).blk t).view.read (Elt Ideal) B) (((cfg0.win 2).blk t).view.read (Elt Ideal) C))
      = ((cfg0.win 4).blk t).view.read (Elt Ideal) (rowsOut A B C D) := by
  funext (j : S5000x64.Idx)
  obtain ⟨p, q, rfl⟩ : ∃ (p : Fin 5000) (q : Fin 64), j = ix2 p q := ⟨j 0, j 1, eq_ix2 j⟩
  have ht : t.val < 20 := lt_of_lt_of_eq t.isLt N_0
  have hr : 5000 * t.val + p.val < 100000 := by have := p.isLt; omega
  obtain ⟨-, -, -, -, -, -, -, -, e8, e9⟩ := index_facts t
  have hemb : ((cfg0.win 4).blk t).view.emb (ix2 p q) = (ix2 ⟨5000 * t.val + p.val, hr⟩ q : S100000x64.Idx) := by
    funext a; apply Fin.ext
    match a with
    | ⟨0, _⟩ => show win0_4.index t (0 : Fin 2) * 5000 + 1 * p.val = 5000 * t.val + p.val; omega
    | ⟨1, _⟩ => show win0_4.index t (1 : Fin 2) * 64 + 1 * q.val = q.val; omega
  show k0_pay1 (((cfg0.win 0).blk t).view.read (Elt Ideal) A) (((cfg0.win 3).blk t).view.read (Elt Ideal) D)
      (((cfg0.win 1).blk t).view.read (Elt Ideal) B) (((cfg0.win 2).blk t).view.read (Elt Ideal) C) (ix2 p q)
    = rowsOut A B C D (((cfg0.win 4).blk t).view.emb (ix2 p q))
  rw [hemb]
  refine (pay_apply _ _ _ _ p q).trans ?_
  show _ = rowsAt A B C D ⟨5000 * t.val + p.val, hr⟩ q
  unfold rowsAt
  rw [rows_read1 B t p q hr, rows_read2 C t p q hr]
  refine congrArg act (congrArg (· + _) (congrArg (_ + ·) (Finset.sum_congr rfl fun κ _ => ?_)))
  rw [rows_read0 A t p κ hr, whole_read3 D t κ q]

/-- An index of the output array is in point t's block iff its row is among the block's 5000 rows. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v42).slice (win0_4.rect t)).set ↔ _
  rw [View.set_slice_whole, Rect.mem_set_unit]
  exact Iff.rfl

/-- Every row is in the block of the point row / 5000. -/
theorem covered (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, e8, e9⟩ := index_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win0_4.index ⟨(i 0).val / 5000, hlt⟩ (1 : Fin 2) * 64 ≤ (i 1).val
      ∧ (i 1).val < win0_4.index ⟨(i 0).val / 5000, hlt⟩ (1 : Fin 2) * 64 + 64
    rw [e9]; omega

/-! ## The arrays the region finds -/

variable (m : (ℓ : Loc nD τ sig) → Buf (Elt Ideal) ℓ)

/-- The four staged arrays as the region finds them, at their literal types. -/
abbrev nbrArr (c : Dev nD) : Vec Ideal S100000x64 .f32 := V m c (Pipeline.arrRef spec0 0)
abbrev nodeArr (c : Dev nD) : Vec Ideal S100000x64 .f32 := V m c (Pipeline.arrRef spec0 1)
abbrev edgeArr (c : Dev nD) : Vec Ideal S100000x64 .f32 := V m c (Pipeline.arrRef spec0 2)
abbrev wtArr (c : Dev nD) : Vec Ideal S64x64 .f32 := V m c (Pipeline.arrRef spec0 3)

/-- WHAT POINT t WRITES BACK is block t of the row layout of the four staged arrays. -/
theorem flushed_eq (c : Dev nD) (t : Fin cfg0.N) :
    (dats m 0 c).flushed 4 t
      = ((cfg0.win 4).blk t).view.read (Elt Ideal) (rowsOut (nbrArr m c) (nodeArr m c) (edgeArr m c) (wtArr m c)) := by
  show (cfg0.win 4).cut (grid0.coords t) ((dats m 0 c).after 4 t) = _
  rw [after0_4]
  unfold out0_4
  rw [View.canon_unit_zero zero_offsets]
  simp only [View.ld_unit_zero (S := S5000x64) zero_offsets, View.ld_unit_zero (S := S64x64) zero_offsets]
  unfold iblk
  exact block_out (nbrArr m c) (nodeArr m c) (edgeArr m c) (wtArr m c) t

/-- THE OUTPUT ARRAY after the run: the row layout of the four staged arrays. -/
theorem final (c : Dev nD) :
    (dats m 0 c).arrAt 4 cfg0.N = rowsOut (nbrArr m c) (nodeArr m c) (edgeArr m c) (wtArr m c) :=
  (dats m 0 c).arrAt_eq_of_cover 4 _ (fun t _ => flushed_eq m c t) covered

end Cert.KernelIdeal.KValue

end
-- ==== Proof.KernelRun.lean ====
/-
  The kernel program's run, read: its result is the batched layout of Spec.lean over the neighbour aggregation.

  After the region the program reshapes the output array from [100000, 64] back to [2, 50000, 64]. The output array
  holds the row layout of the four staged arrays (KernelValue.lean), those are the flattened aggregation, the flattened
  feature arrays and the transposed weight (KernelArrays.lean), and reshaping the row layout of exactly these back is
  the batched layout of the arrays themselves (Spec.lean).
-/
import proofs.«170714_j70669391888820_1_alg».proof.Proof.KernelArrays
import proofs.«170714_j70669391888820_1_alg».proof.Proof.KernelValue

set_option maxRecDepth 16384

noncomputable section

namespace Cert.KernelIdeal.KRun

open Cert.KernelIdeal Cert.KernelIdeal.Gen Cert.KernelIdeal.Nbr Cert.KernelIdeal.KArrays Cert.KernelIdeal.KValue Cert.Fused
open Idealize.ShloMosaic Idealize.ShloMosaic.TcCoe Idealize.ShloMosaic.ValueIdx Idealize.SL.Sem Idealize.ShloMosaic.StableHlo

-- the arrays' contents at the region's entry are a fold over the host lines before it: nothing here looks inside it
attribute [local irreducible] StableHlo.after

variable (m : (ℓ : Loc nD τ sig) → Buf (Elt Ideal) ℓ) (ρ : Dev nD → PrngReg)

/-- The staged arrays, over their literal types, in terms of the argument arrays. -/
theorem nbrArr_eq (c : Dev nD) :
    nbrArr m c = shapeCast S100000x64 (nbrOf (m ((c : Thread nD τ).loc main_arg0)) (m ((c : Thread nD τ).loc main_arg1))
      (m ((c : Thread nD τ).loc main_arg4))) shapeCasts_S2x50000x64_S100000x64 := nbr_rows m c
theorem nodeArr_eq (c : Dev nD) :
    nodeArr m c = shapeCast S100000x64 (m ((c : Thread nD τ).loc main_arg2)) shapeCasts_S2x50000x64_S100000x64 := node_rows m c
theorem edgeArr_eq (c : Dev nD) :
    edgeArr m c = shapeCast S100000x64 (m ((c : Thread nD τ).loc main_arg3)) shapeCasts_S2x50000x64_S100000x64 := edge_rows m c
theorem wtArr_eq (c : Dev nD) :
    wtArr m c = transpose S64x64 [1, 0] (m ((c : Thread nD τ).loc main_arg5)) transposes_S64x64_S64x64_1_0 := weight_transposed m c

/-- The program's result after the line that follows the region. -/
theorem result_eq (c : Dev nD) :
    Pipeline.afterTail₀ cfgs (dats m) 0 (V0 m) [hostOps1] c main_v43
      = batchOut (nbrOf (m ((c : Thread nD τ).loc main_arg0)) (m ((c : Thread nD τ).loc main_arg1)) (m ((c : Thread nD τ).loc main_arg4)))
          (m ((c : Thread nD τ).loc main_arg2)) (m ((c : Thread nD τ).loc main_arg3)) (m ((c : Thread nD τ).loc main_arg5)) := by
  have e : Pipeline.withArrays spec0 c (V0 m c) (fun w => (dats m 0 c).arrAt w cfg0.N) (Proc.devRef .tc main_v42)
      = rowsOut (nbrArr m c) (nodeArr m c) (edgeArr m c) (wtArr m c) :=
    (Pipeline.withArrays_arr spec0 launch0.win.arr_inj c _ _ 4).trans (final m c)
  unfold Pipeline.afterTail₀
  show StableHlo.after hostOps1 (Pipeline.withArrays spec0 c (V0 m c) fun w => (dats m 0 c).arrAt w cfg0.N) (Proc.devRef .tc main_v43) = _
  generalize Pipeline.withArrays spec0 c (V0 m c) (fun w => (dats m 0 c).arrAt w cfg0.N) = W at e ⊢
  after_results
  rw [e, nbrArr_eq m c, nodeArr_eq m c, edgeArr_eq m c, wtArr_eq m c]
  exact batch_of_rows shapeCasts_S100000x64_S2x50000x64 shapeCasts_S2x50000x64_S100000x64 transposes_S64x64_S64x64_1_0 _ _ _ _

/-- Every weakly fair execution of the kernel program terminates with its result at the batched layout over the
    aggregation of the arguments, the arguments unchanged. -/
theorem run : θ_run defs (onTc (τ := τ) (main (F := Ideal))) ⟨m, fun _ => 0, ρ⟩ fun r => ∀ c : Dev nD,
      r.2.mem ((c.tc : Thread nD τ).loc main_v43)
        = batchOut (nbrOf (m ((c.tc : Thread nD τ).loc main_arg0)) (m ((c.tc : Thread nD τ).loc main_arg1)) (m ((c.tc : Thread nD τ).loc main_arg4)))
            (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v43 (Pipeline.mem_restRefs_of main_v43 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.RefRun.lean ====
/-
  The reference program's run, read back.

  The reference is a straight line of 57 host operations: the two endpoint columns of the edge list, each index
  wrapped once (i + 50000 where i < 0), the two gathers of the previous embeddings at the endpoints, each gated by
  the edge status, the two scatter-adds of the gated rows into a zero array (the messages along u → v, then along
  v → u), the product with the weight (contracting the feature axis with the weight's column axis), the two
  additions, and the leaky rectifier (the comparison with zero, the slope times the sum, the selection), whose lines
  jax outlined into two functions that are inlined at their call.

  Every weakly fair execution ends with each buffer at the fold of these operations over the launch contents.
-/
import proofs.«170714_j70669391888820_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- @main is that straight line: the two outlined functions unfolded at their calls, the sequencing reassociated. -/
theorem main_eq (c : Dev nD) : main (F := F) c = seq ops := by
  simp only [main, fn_leaky_relu.body, fn_where.body, seq, bind_assoc, pure_bind]

/-- The reference scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, and every final state has each buffer at the fold of the
    operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibRowsDot.lean ====
/-
  The host matrix product of a batched left operand [2, 50000, 64] with a weight [64, 64], contracting the left
  operand's last axis with the weight's LAST axis (the weight is used untransposed: its rows are output features).

  The dimension numbers place the coordinates: the left operand is read at (batch, node, contraction position), the
  weight at (output feature, contraction position). At the ideal values the product is the exact sum over the
  contraction index, so entry (b, n, e) is  ∑ κ < 64, l (b, n, κ) · r (e, κ).
-/
import Idealize.ShloMosaic.Lib.ValueIdx
import Idealize.ShloMosaic.PureOps.Ideal.Laws

namespace Cert.RowsDot

open Idealize.ShloMosaic Idealize.ShloMosaic.ValueIdx

variable {a n k f : ℕ} (d : DotDims ⟨3, ![a, n, k]⟩ ⟨2, ![f, k]⟩ ⟨3, ![a, n, f]⟩)

/-- The dimension numbers of this product: no batch axis, the left operand's first two axes and the right operand's
    first axis free, the last axis of each contracted. -/
structure Shaped : Prop where
  lhsBatch : d.lhsBatch = []
  lhsNon : d.lhsNonContracting = [0, 1]
  lhsContr : d.lhsContracting = [2]
  rhsBatch : d.rhsBatch = []
  rhsNon : d.rhsNonContracting = [0]
  rhsContr : d.rhsContracting = [1]

variable {d}

/-- The left operand's batch coordinate is the result's. -/
theorem lhs_0 (h : Shaped d) (j : (⟨3, ![a, n, f]⟩ : Shape).Idx) (q : d.contr.Idx) : (d.lhsIdx j q 0).val = (j 0).val := by
  unfold DotDims.lhsIdx
  rw [dif_neg (by rw [h.lhsBatch]; exact List.not_mem_nil), dif_pos (by rw [h.lhsNon]; simp)]
  simp only [Fin.val_cast]
  have key : ∀ (p : Nat) (hp : p < 3), p = 0 → (j ⟨p, hp⟩).val = (j 0).val := fun p hp e => by subst e; rfl
  exact key _ _ (by simp [h.lhsBatch, h.lhsNon])

/-- The left operand's node coordinate is the result's. -/
theorem lhs_1 (h : Shaped d) (j : (⟨3, ![a, n, f]⟩ : Shape).Idx) (q : d.contr.Idx) : (d.lhsIdx j q 1).val = (j 1).val := by
  unfold DotDims.lhsIdx
  rw [dif_neg (by rw [h.lhsBatch]; exact List.not_mem_nil), dif_pos (by rw [h.lhsNon]; simp)]
  simp only [Fin.val_cast]
  have key : ∀ (p : Nat) (hp : p < 3), p = 1 → (j ⟨p, hp⟩).val = (j 1).val := fun p hp e => by subst e; rfl
  exact key _ _ (by simp [h.lhsBatch, h.lhsNon])

/-- The weight's row is the result's feature coordinate. -/
theorem rhs_0 (h : Shaped d) (j : (⟨3, ![a, n, f]⟩ : Shape).Idx) (q : d.contr.Idx) : (d.rhsIdx j q 0).val = (j 2).val := by
  unfold DotDims.rhsIdx
  rw [dif_neg (by rw [h.rhsBatch]; exact List.not_mem_nil), dif_pos (by rw [h.rhsNon]; simp)]
  simp only [Fin.val_cast]
  have key : ∀ (p : Nat) (hp : p < 3), p = 2 → (j ⟨p, hp⟩).val = (j 2).val := fun p hp e => by subst e; rfl
  exact key _ _ (by simp [h.lhsBatch, h.lhsNon, h.rhsNon])

/-- The contraction over the record's own index type, re-indexed to κ < k. -/
theorem sum_contr (h : Shaped d) (hr : d.contr.rank = 1) (hs : d.contr.size ⟨0, by omega⟩ = k)
    (l : (⟨3, ![a, n, k]⟩ : Shape).Idx → EReal) (r : (⟨2, ![f, k]⟩ : Shape).Idx → EReal) (b : Fin a) (i : Fin n) (e : Fin f) :
    ∑ κ : d.contr.Idx, l (d.lhsIdx (ix3 b i e) κ) * r (d.rhsIdx (ix3 b i e) κ) = ∑ κ : Fin k, l (ix3 b i κ) * r (ix2 e κ) := by
  rw [← Equiv.sum_comp (contrEquiv1 d k hr hs).symm]
  refine Finset.sum_congr rfl fun κ _ => ?_
  have hk := contrEquiv1_symm_val d k hr hs κ
  have el : d.lhsIdx (ix3 b i e) ((contrEquiv1 d k hr hs).symm κ) = ix3 b i κ := funext fun x => Fin.ext (by
    match x with
    | ⟨0, _⟩ => exact lhs_0 h _ _
    | ⟨1, _⟩ => exact lhs_1 h _ _
    | ⟨2, _⟩ => exact (d.lhsIdx_val_of_single h.lhsContr _ _).trans hk)
  have er : d.rhsIdx (ix3 b i e) ((contrEquiv1 d k hr hs).symm κ) = ix2 e κ := funext fun x => Fin.ext (by
    match x with
    | ⟨0, _⟩ => exact rhs_0 h _ _
    | ⟨1, _⟩ => exact (d.rhsIdx_val_of_single h.rhsContr _ _).trans hk)
  rw [el, er]

/-- The host's product, at an entry. -/
theorem dotGeneral_apply {φ₁ φ₂ : FTy} (h : Shaped d) (hr : d.contr.rank = 1) (hs : d.contr.size ⟨0, by omega⟩ = k)
    (prec : Option ContractPrecision) (l : FVec Ideal ⟨3, ![a, n, k]⟩ φ₁) (r : FVec Ideal ⟨2, ![f, k]⟩ φ₂)
    (b : Fin a) (i : Fin n) (e : Fin f) :
    Host.dotGeneral d prec l r (ix3 b i e) = ∑ κ : Fin k, l (ix3 b i κ) * r (ix2 e κ) := by
  simp only [Host.dotGeneral]
  exact (Ideal.dotGeneral_apply d prec _ l r (ix3 b i e)).trans (sum_contr h hr hs l r b i e)

end Cert.RowsDot
-- ==== Proof.RefValue.lean ====
/-
  The reference's result, as the batched layout of Spec.lean over the neighbour aggregation.

  Read at its result buffer, the fold of the reference's operations is: the aggregation of the previous embeddings,
  the edge list and the edge status (the very operations of Nbr.lean, in the same order), multiplied into the weight
  along the feature axis, added to the node features, then to the edge features, and passed through the leaky
  rectifier. At batch b, node n, feature e the host product is the sum over κ < 64 of nbr[b,n,κ] · w[e,κ]
  (LibRowsDot.lean), the broadcast constants read the same word everywhere, and the rest is entrywise.
-/
import proofs.«170714_j70669391888820_1_alg».proof.Proof.RefRun
import proofs.«170714_j70669391888820_1_alg».proof.Proof.Nbr
import proofs.«170714_j70669391888820_1_alg».proof.Proof.Spec
import proofs.«170714_j70669391888820_1_alg».proof.Proof.LibRowsDot
import Idealize.ShloMosaic.Lib.IdealHost

set_option maxRecDepth 16384

noncomputable section

namespace Cert.ReferenceIdeal.RefValue

open Cert.ReferenceIdeal Cert.ReferenceIdeal.Gen Cert.Fused
open Idealize.ShloMosaic Idealize.ShloMosaic.TcCoe Idealize.ShloMosaic.ValueIdx Idealize.SL.Sem Idealize.ShloMosaic.StableHlo

/-- The reference's product contracts the left operand's last axis with the weight's last axis. -/
theorem shaped : Cert.RowsDot.Shaped dot_S2x50000x64_S64x64_S2x50000x64_2_1_01_0_n_n := ⟨rfl, rfl, rfl, rfl, rfl, rfl⟩

/-- What the reference does after the aggregation, as its operations spell it. -/
def afterNbr (nbr node edge : FVec Ideal S2x50000x64 .f32) (w : FVec Ideal S64x64 .f32) : FVec Ideal S2x50000x64 .f32 :=
  select
    (cmpf .oge (addf (addf node (Host.dotGeneral dot_S2x50000x64_S64x64_S2x50000x64_2_1_01_0_n_n none nbr w)) edge)
      (broadcastInDim S2x50000x64 ![] bcast_S_S2x50000x64 (constant S_ .f32 0x00000000#32)))
    (addf (addf node (Host.dotGeneral dot_S2x50000x64_S64x64_S2x50000x64_2_1_01_0_n_n none nbr w)) edge)
    (mulf (broadcastInDim S2x50000x64 ![] bcast_S_S2x50000x64 (constant S_ .f32 0x3C23D70A#32))
      (addf (addf node (Host.dotGeneral dot_S2x50000x64_S64x64_S2x50000x64_2_1_01_0_n_n none nbr w)) edge))

/-- The fold at the result buffer: the tail applied to the aggregation of the arguments. -/
theorem out_fold (V : Valuation τ sig (Elt Ideal)) :
    after (RefRun.ops (F := Ideal)) V (main_v41 : DevRef τ sig)
      = afterNbr (Cert.KernelIdeal.Nbr.nbrOf (V (main_arg0 : DevRef τ sig)) (V (main_arg1 : DevRef τ sig)) (V (main_arg4 : DevRef τ sig)))
          (V (main_arg2 : DevRef τ sig)) (V (main_arg3 : DevRef τ sig)) (V (main_arg5 : DevRef τ sig)) := by
  after_results_simp
  rfl

/-- The arguments are written by no operation. -/
theorem arg0_kept (V : Valuation τ sig (Elt Ideal)) : after (RefRun.ops (F := Ideal)) V (main_arg0 : DevRef τ sig) = V (main_arg0 : DevRef τ sig) := by
  after_results_simp
theorem arg1_kept (V : Valuation τ sig (Elt Ideal)) : after (RefRun.ops (F := Ideal)) V (main_arg1 : DevRef τ sig) = V (main_arg1 : DevRef τ sig) := by
  after_results_simp
theorem arg2_kept (V : Valuation τ sig (Elt Ideal)) : after (RefRun.ops (F := Ideal)) V (main_arg2 : DevRef τ sig) = V (main_arg2 : DevRef τ sig) := by
  after_results_simp
theorem arg3_kept (V : Valuation τ sig (Elt Ideal)) : after (RefRun.ops (F := Ideal)) V (main_arg3 : DevRef τ sig) = V (main_arg3 : DevRef τ sig) := by
  after_results_simp
theorem arg4_kept (V : Valuation τ sig (Elt Ideal)) : after (RefRun.ops (F := Ideal)) V (main_arg4 : DevRef τ sig) = V (main_arg4 : DevRef τ sig) := by
  after_results_simp
theorem arg5_kept (V : Valuation τ sig (Elt Ideal)) : after (RefRun.ops (F := Ideal)) V (main_arg5 : DevRef τ sig) = V (main_arg5 : DevRef τ sig) := by
  after_results_simp

/-- Entry by entry the tail is the batched layout. -/
theorem afterNbr_eq (nbr node edge : FVec Ideal S2x50000x64 .f32) (w : FVec Ideal S64x64 .f32) :
    afterNbr nbr node edge w = batchOut nbr node edge w := by
  funext (i : T3.Idx)
  obtain ⟨b, n, e, rfl⟩ : ∃ (b : Fin 2) (n : Fin 50000) (e : Fin 64), i = ix3 b n e := ⟨i 0, i 1, i 2, eq_ix3 i⟩
  unfold afterNbr
  simp only [select_apply, cmpf_apply, mulf_apply, addf_apply, broadcastInDim_scalar_apply, constant_apply]
  rw [Cert.RowsDot.dotGeneral_apply shaped rfl rfl]
  rfl

end Cert.ReferenceIdeal.RefValue

end
-- ==== Proof.lean ====
/-
  Neighbour aggregation, then Linear(64, 64, no bias) + residual add + leaky rectifier: the kernel program against its
  jnp reference, over the extended reals.

  Both programs first aggregate neighbour messages with the same host operations in the same order (two gathers of the
  previous embeddings at the edge endpoints, gated by the edge status, scatter-added in both directions): one function
  nbr of the previous embeddings, the edge list and the edge status (Proof/Nbr.lean), never opened.

  The reference then forms   act ((node + nbr · wᵀ) + edge)   directly on [2, 50000, 64], its product contracting the
  feature axis with the weight's second axis. The kernel program flattens batch and node into 100000 rows, transposes
  the weight on the host, and runs one pallas_call over 20 blocks of 5000 rows whose body casts its two product
  operands to a narrower format (the identity on the extended reals), multiplies into a zero accumulator (the exact
  sum over the 64 input features), adds the two feature blocks in the reference's order and applies the same
  rectifier with the same slope word; the result is reshaped back.

  So both results are, at batch b, node n, feature e,
      act ((node[b,n,e] + ∑ κ < 64, nbr[b,n,κ] · w[e,κ]) + edge[b,n,e])      (Proof/Spec.lean, batchOut):
  the reference by reading its operations at an entry (Proof/RefValue.lean over the run of Proof/RefRun.lean), the
  kernel program because its 20 written-back blocks tile the rows and each is the row layout of the staged arrays
  (Proof/KernelBlock.lean, Proof/KernelValue.lean), which reshaped back is the batched layout (Proof/KernelRun.lean).
  Only the positions of equal entries are re-arranged: no law of the extended reals that needs finiteness is used, and
  the precondition is never opened. The ideal pass rewrote nothing, so the preservation claim is trivial; the two
  kernel frames are the generated frame certificates, the reference's frame is its run with the values dropped.
-/
import proofs.«170714_j70669391888820_1_alg».proof.Defs
import proofs.«170714_j70669391888820_1_alg».proof.Proof.Gen.Kernel
import proofs.«170714_j70669391888820_1_alg».proof.Proof.Gen.Kernel.Frame
import proofs.«170714_j70669391888820_1_alg».proof.Proof.Gen.KernelIdeal
import proofs.«170714_j70669391888820_1_alg».proof.Proof.Gen.KernelIdeal.Frame
import proofs.«170714_j70669391888820_1_alg».proof.Proof.Gen.ReferenceIdeal
import proofs.«170714_j70669391888820_1_alg».proof.Proof.Gen.Pre_finite_inputs
import proofs.«170714_j70669391888820_1_alg».proof.Proof.KernelRun
import proofs.«170714_j70669391888820_1_alg».proof.Proof.RefValue
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its run, each argument buffer read through the fold (no operation writes an argument). -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.arg0_kept _),
      (h c Cert.ReferenceIdeal.main_arg1).trans (Cert.ReferenceIdeal.RefValue.arg1_kept _),
      (h c Cert.ReferenceIdeal.main_arg2).trans (Cert.ReferenceIdeal.RefValue.arg2_kept _),
      (h c Cert.ReferenceIdeal.main_arg3).trans (Cert.ReferenceIdeal.RefValue.arg3_kept _),
      (h c Cert.ReferenceIdeal.main_arg4).trans (Cert.ReferenceIdeal.RefValue.arg4_kept _),
      (h c Cert.ReferenceIdeal.main_arg5).trans (Cert.ReferenceIdeal.RefValue.arg5_kept _)⟩)
    (Cert.ReferenceIdeal.RefRun.run_all (F := Ideal) m ρ)

/-- The ideal pass rewrote no operation. -/
theorem preserves : Cert.preserves_Kernel_KernelIdeal := trivial

/-- Both programs end at the batched layout over the aggregation of the (agreeing) arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨?_,
      (h c Cert.ReferenceIdeal.main_arg0).trans (Cert.ReferenceIdeal.RefValue.arg0_kept _),
      (h c Cert.ReferenceIdeal.main_arg1).trans (Cert.ReferenceIdeal.RefValue.arg1_kept _),
      (h c Cert.ReferenceIdeal.main_arg2).trans (Cert.ReferenceIdeal.RefValue.arg2_kept _),
      (h c Cert.ReferenceIdeal.main_arg3).trans (Cert.ReferenceIdeal.RefValue.arg3_kept _),
      (h c Cert.ReferenceIdeal.main_arg4).trans (Cert.ReferenceIdeal.RefValue.arg4_kept _),
      (h c Cert.ReferenceIdeal.main_arg5).trans (Cert.ReferenceIdeal.RefValue.arg5_kept _)⟩)
    (Cert.ReferenceIdeal.RefRun.run_all (F := Ideal) m' ρ')
  refine (h c Cert.ReferenceIdeal.main_v41).trans ?_
  refine (Cert.ReferenceIdeal.RefValue.out_fold _).trans ?_
  refine (Cert.ReferenceIdeal.RefValue.afterNbr_eq _ _ _ _).trans ?_
  obtain ⟨h0, h1, h2, h3, h4, h5⟩ := hagree c
  exact congr (congr (congr (congrArg Cert.Fused.batchOut
    (congr (congr (congrArg (Cert.KernelIdeal.Nbr.nbrOf (F := Ideal)) h0) h1) h4)) h2) h3) h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
